-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S128x3 : Shape := ⟨2, ![128, 3]⟩
abbrev S128 : Shape := ⟨1, ![128]⟩
abbrev S7x128x128 : Shape := ⟨3, ![7, 128, 128]⟩
abbrev S7x128 : Shape := ⟨2, ![7, 128]⟩
abbrev S3x128 : Shape := ⟨2, ![3, 128]⟩
abbrev S3 : Shape := ⟨1, ![3]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S7x128 .f32) (main_arg5 : FVec F S3x128 .f32) (main_arg6 : FVec F S3 .f32) (main_v13 : IVec S_ 1) (main_v16 : IVec S7x128x128 1) : IVec S_ 1 :=
  let main_c_5 : IVec S_ 1 := constantI S_ 1 1#1
  let main_v17 : IVec S_ 1 := (fun x v => Host.reduce IntOp.andi x v reducesTo_S7x128x128_S_d0_1_2 h_S_) main_v16 main_c_5
  let main_v18 : IVec S_ 1 := andi main_v13 main_v17
  let main_v19 : FVec F S7x128 .f32 := Host.absf main_arg4
  let main_cst_6 : FVec F S_ .f32 := constant S_ .f32 0x7F800000#32
  let main_v20 : FVec F S7x128 .f32 := broadcastInDim S7x128 ![] bcast_S_S7x128 main_cst_6
  let main_v21 : IVec S7x128 1 := cmpf .olt main_v19 main_v20
  let main_c_7 : IVec S_ 1 := constantI S_ 1 1#1
  let main_v22 : IVec S_ 1 := (fun x v => Host.reduce IntOp.andi x v reducesTo_S7x128_S_d0_1 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S262144x3 .f32) (main_arg1 : FVec F S128x3 .f32) (main_arg2 : FVec F S128 .f32) (main_arg3 : FVec F S7x128x128 .f32) (main_arg4 : FVec F S7x128 .f32) (main_arg5 : FVec F S3x128 .f32) (main_arg6 : FVec F S3 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S7x128x128 .f32 := Host.absf main_arg3
  let main_cst_4 : FVec F S_ .f32 := constant S_ .f32 0x7F800000#32
  let main_v15 : FVec F S7x128x128 .f32 := broadcastInDim S7x128x128 ![] bcast_S_S7x128x128 main_cst_4
  let main_v16 : IVec S7x128x128 1 := cmpf .olt main_v14 main_v15
  fn_part1 (F := F) main_arg4 main_arg5 main_arg6 main_v13 main_v16
-- ==== Kernel.lean ====
abbrev S262144x3 : Shape := ⟨2, ![262144, 3]⟩
abbrev S128x3 : Shape := ⟨2, ![128, 3]⟩
abbrev S128 : Shape := ⟨1, ![128]⟩
abbrev S7x128x128 : Shape := ⟨3, ![7, 128, 128]⟩
abbrev S7x128 : Shape := ⟨2, ![7, 128]⟩
abbrev S3x128 : Shape := ⟨2, ![3, 128]⟩
abbrev S3 : Shape := ⟨1, ![3]⟩
abbrev S8192x3 : Shape := ⟨2, ![8192, 3]⟩
abbrev S8192x128 : Shape := ⟨2, ![8192, 128]⟩
abbrev S1x128 : Shape := ⟨2, ![1, 128]⟩
abbrev S1x128x128 : Shape := ⟨3, ![1, 128, 128]⟩
abbrev S128x128 : Shape := ⟨2, ![128, 128]⟩
abbrev S1x3 : Shape := ⟨2, ![1, 3]⟩

abbrev nBuf : Space → Nat
  | .hbm => 8
  | .vmem => 10
  | .smem => 0
  | _ => 0

abbrev bufTy : (tb : Table) → Fin (tcTables nBuf tb) → BufTy
  | .hbm, ⟨0, _⟩ => ⟨S262144x3, .f32⟩
  | .hbm, ⟨1, _⟩ => ⟨S128x3, .f32⟩
  | .hbm, ⟨2, _⟩ => ⟨S128, .f32⟩
  | .hbm, ⟨3, _⟩ => ⟨S7x128x128, .f32⟩
  | .hbm, ⟨4, _⟩ => ⟨S7x128, .f32⟩
  | .hbm, ⟨5, _⟩ => ⟨S3x128, .f32⟩
  | .hbm, ⟨6, _⟩ => ⟨S3, .f32⟩
  | .hbm, ⟨7, _⟩ => ⟨S262144x3, .f32⟩
  | .local _ .vmem, ⟨0, _⟩ => ⟨S8192x3, .f32⟩
  | .local _ .vmem, ⟨1, _⟩ => ⟨S8192x3, .f32⟩
  | .local _ .vmem, ⟨2, _⟩ => ⟨S128x3, .f32⟩
  | .local _ .vmem, ⟨3, _⟩ => ⟨S128, .f32⟩
  | .local _ .vmem, ⟨4, _⟩ => ⟨S7x128x128, .f32⟩
  | .local _ .vmem, ⟨5, _⟩ => ⟨S7x128, .f32⟩
  | .local _ .vmem, ⟨6, _⟩ => ⟨S3x128, .f32⟩
  | .local _ .vmem, ⟨7, _⟩ => ⟨S3, .f32⟩
  | .local _ .vmem, ⟨8, _⟩ => ⟨S8192x3, .f32⟩
  | .local _ .vmem, ⟨9, _⟩ => ⟨S8192x3, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x3_S8192x3_0_0 : ∀ a, (![0, 0] : Fin 2 → Nat) a + S8192x3.size a ≤ S8192x3.size a
  h_S8192x3 : 0 < S8192x3.numel
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  inb_S128_S128_0 : ∀ a, (![0] : Fin 1 → Nat) a + S128.size a ≤ S128.size a
  h_S128 : 0 < S128.numel
  transposes_S128x3_p1_0_S3x128 : S128x3.Transposes [1, 0] S3x128
  shapeCasts_S128_S1x128 : S128.ShapeCasts S1x128
  broadcasts_S1x128_S8192x128 : S1x128.Broadcasts S8192x128
  inb_S7x128x128_S1x128x128_0_0_0 : ∀ a, (![0, 0, 0] : Fin 3 → Nat) a + S1x128x128.size a ≤ S7x128x128.size a
  h_S1x128x128 : 0 < S1x128x128.numel
  shapeCasts_S1x128x128_S128x128 : S1x128x128.ShapeCasts S128x128
  inb_S7x128_S1x128_0_0 : ∀ a, (![0, 0] : Fin 2 → Nat) a + S1x128.size a ≤ S7x128.size a
  h_S1x128 : 0 < S1x128.numel
  shapeCasts_S1x128_S128 : S1x128.ShapeCasts S128
  transposes_S128x128_p1_0_S128x128 : S128x128.Transposes [1, 0] S128x128
  inb_S7x128x128_S1x128x128_1_0_0 : ∀ a, (![1, 0, 0] : Fin 3 → Nat) a + S1x128x128.size a ≤ S7x128x128.size a
  inb_S7x128_S1x128_1_0 : ∀ a, (![1, 0] : Fin 2 → Nat) a + S1x128.size a ≤ S7x128.size a
  inb_S7x128x128_S1x128x128_2_0_0 : ∀ a, (![2, 0, 0] : Fin 3 → Nat) a + S1x128x128.size a ≤ S7x128x128.size a
  inb_S7x128_S1x128_2_0 : ∀ a, (![2, 0] : Fin 2 → Nat) a + S1x128.size a ≤ S7x128.size a
  inb_S7x128x128_S1x128x128_3_0_0 : ∀ a, (![3, 0, 0] : Fin 3 → Nat) a + S1x128x128.size a ≤ S7x128x128.size a
  inb_S7x128_S1x128_3_0 : ∀ a, (![3, 0] : Fin 2 → Nat) a + S1x128.size a ≤ S7x128.size a
  inb_S7x128x128_S1x128x128_4_0_0 : ∀ a, (![4, 0, 0] : Fin 3 → Nat) a + S1x128x128.size a ≤ S7x128x128.size a
  inb_S7x128_S1x128_4_0 : ∀ a, (![4, 0] : Fin 2 → Nat) a + S1x128.size a ≤ S7x128.size a
  inb_S7x128x128_S1x128x128_5_0_0 : ∀ a, (![5, 0, 0] : Fin 3 → Nat) a + S1x128x128.size a ≤ S7x128x128.size a
  inb_S7x128_S1x128_5_0 : ∀ a, (![5, 0] : Fin 2 → Nat) a + S1x128.size a ≤ S7x128.size a
  inb_S7x128x128_S1x128x128_6_0_0 : ∀ a, (![6, 0, 0] : Fin 3 → Nat) a + S1x128x128.size a ≤ S7x128x128.size a
  inb_S7x128_S1x128_6_0 : ∀ a, (![6, 0] : Fin 2 → Nat) a + S1x128.size a ≤ S7x128.size a
  inb_S3x128_S3x128_0_0 : ∀ a, (![0, 0] : Fin 2 → Nat) a + S3x128.size a ≤ S3x128.size a
  h_S3x128 : 0 < S3x128.numel
  inb_S3_S3_0 : ∀ a, (![0] : Fin 1 → Nat) a + S3.size a ≤ S3.size a
  h_S3 : 0 < S3.numel
  transposes_S3x128_p1_0_S128x3 : S3x128.Transposes [1, 0] S128x3
  shapeCasts_S3_S1x3 : S3.ShapeCasts S1x3
  broadcasts_S1x3_S8192x3 : S1x3.Broadcasts S8192x3
  dot_S8192x3_S3x128_S8192x128_1_0_0_1_n_n_wf : DotDims.WF S8192x3 S3x128 S8192x128 [1] [0] [0] [1] [] []
  dot_S8192x128_S128x128_S8192x128_1_0_0_1_n_n_wf : DotDims.WF S8192x128 S128x128 S8192x128 [1] [0] [0] [1] [] []
  dot_S8192x128_S128x3_S8192x3_1_0_0_1_n_n_wf : DotDims.WF S8192x128 S128x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S262144x3.size a
  hwx0_0 : ∀ i : grid0.Coords, EltTy.bits .f32 = 32 ∨ (Rect.block (s := S262144x3) S8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x128x128.size a ≤ S7x128x128.size a
  hwx0_3 : ∀ i : grid0.Coords, EltTy.bits .f32 = 32 ∨ (Rect.block (s := S7x128x128) S7x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x128.size a ≤ S7x128.size a
  hwx0_4 : ∀ i : grid0.Coords, EltTy.bits .f32 = 32 ∨ (Rect.block (s := S7x128) S7x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3.size a ≤ S3.size a
  hwx0_6 : ∀ i : grid0.Coords, EltTy.bits .f32 = 32 ∨ (Rect.block (s := S3) S3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x3.size a ≤ S262144x3.size a
  hwx0_7 : ∀ i : grid0.Coords, EltTy.bits .f32 = 32 ∨ (Rect.block (s := S262144x3) S8192x3.size (cc0_transform_7 i) (hinb0_7 i)).WholeWords (EltTy.packing .f32)

variable [Facts₀]

def dot_S8192x3_S3x128_S8192x128_1_0_0_1_n_n : DotDims S8192x3 S3x128 S8192x128 where
  lhsContracting := [1]
  rhsContracting := [0]
  lhsNonContracting := [0]
  rhsNonContracting := [1]
  lhsBatch := []
  rhsBatch := []
  wf := dot_S8192x3_S3x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf

abbrev win0_0 : Pipeline.Window sig grid0 :=
  Pipeline.Window.ofSpec (Memref.whole main_arg0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x3 : Shape := ⟨2, ![262144, 3]⟩
abbrev S128x3 : Shape := ⟨2, ![128, 3]⟩
abbrev S128 : Shape := ⟨1, ![128]⟩
abbrev S7x128x128 : Shape := ⟨3, ![7, 128, 128]⟩
abbrev S7x128 : Shape := ⟨2, ![7, 128]⟩
abbrev S3x128 : Shape := ⟨2, ![3, 128]⟩
abbrev S3 : Shape := ⟨1, ![3]⟩
abbrev S262144x128 : Shape := ⟨2, ![262144, 128]⟩
abbrev S1x128 : Shape := ⟨2, ![1, 128]⟩
abbrev S_ : Shape := ⟨0, ![]⟩
abbrev S1x128x128 : Shape := ⟨3, ![1, 128, 128]⟩
abbrev S128x128 : Shape := ⟨2, ![128, 128]⟩
abbrev S1x3 : Shape := ⟨2, ![1, 3]⟩

abbrev nBuf : Space → Nat
  | .hbm => 104
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S128x3, .f32⟩
  | .hbm, ⟨2, _⟩ => ⟨S128, .f32⟩
  | .hbm, ⟨3, _⟩ => ⟨S7x128x128, .f32⟩
  | .hbm, ⟨4, _⟩ => ⟨S7x128, .f32⟩
  | .hbm, ⟨5, _⟩ => ⟨S3x128, .f32⟩
  | .hbm, ⟨6, _⟩ => ⟨S3, .f32⟩
  | .hbm, ⟨7, _⟩ => ⟨S3x128, .f32⟩
  | .hbm, ⟨8, _⟩ => ⟨S262144x128, .f32⟩
  | .hbm, ⟨9, _⟩ => ⟨S1x128, .f32⟩
  | .hbm, ⟨10, _⟩ => ⟨S262144x128, .f32⟩
  | .hbm, ⟨11, _⟩ => ⟨S262144x128, .f32⟩
  | .hbm, ⟨12, _⟩ => ⟨S_, .f32⟩
  | .hbm, ⟨13, _⟩ => ⟨S262144x128, .f32⟩
  | .hbm, ⟨14, _⟩ => ⟨S262144x128, .f32⟩
  | .hbm, ⟨15, _⟩ => ⟨S1x128x128, .f32⟩
  | .hbm, ⟨16, _⟩ => ⟨S128x128, .f32⟩
  | .hbm, ⟨17, _⟩ => ⟨S128x128, .f32⟩
  | .hbm, ⟨18, _⟩ => ⟨S262144x128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S262144x128, .f32⟩
  | .hbm, ⟨23, _⟩ => ⟨S262144x128, .f32⟩
  | .hbm, ⟨24, _⟩ => ⟨S_, .f32⟩
  | .hbm, ⟨25, _⟩ => ⟨S262144x128, .f32⟩
  | .hbm, ⟨26, _⟩ => ⟨S262144x128, .f32⟩
  | .hbm, ⟨27, _⟩ => ⟨S1x128x128, .f32⟩
  | .hbm, ⟨28, _⟩ => ⟨S128x128, .f32⟩
  | .hbm, ⟨29, _⟩ => ⟨S128x128, .f32⟩
  | .hbm, ⟨30, _⟩ => ⟨S262144x128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S262144x128, .f32⟩
  | .hbm, ⟨35, _⟩ => ⟨S262144x128, .f32⟩
  | .hbm, ⟨36, _⟩ => ⟨S_, .f32⟩
  | .hbm, ⟨37, _⟩ => ⟨S262144x128, .f32⟩
  | .hbm, ⟨38, _⟩ => ⟨S262144x128, .f32⟩
  | .hbm, ⟨39, _⟩ => ⟨S1x128x128, .f32⟩
  | .hbm, ⟨40, _⟩ => ⟨S128x128, .f32⟩
  | .hbm, ⟨41, _⟩ => ⟨S128x128, .f32⟩
  | .hbm, ⟨42, _⟩ => ⟨S262144x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S262144x128, .f32⟩
  | .hbm, ⟨47, _⟩ => ⟨S262144x128, .f32⟩
  | .hbm, ⟨48, _⟩ => ⟨S_, .f32⟩
  | .hbm, ⟨49, _⟩ => ⟨S262144x128, .f32⟩
  | .hbm, ⟨50, _⟩ => ⟨S262144x128, .f32⟩
  | .hbm, ⟨51, _⟩ => ⟨S1x128x128, .f32⟩
  | .hbm, ⟨52, _⟩ => ⟨S128x128, .f32⟩
  | .hbm, ⟨53, _⟩ => ⟨S128x128, .f32⟩
  | .hbm, ⟨54, _⟩ => ⟨S262144x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S262144x128, .f32⟩
  | .hbm, ⟨59, _⟩ => ⟨S262144x128, .f32⟩
  | .hbm, ⟨60, _⟩ => ⟨S_, .f32⟩
  | .hbm, ⟨61, _⟩ => ⟨S262144x128, .f32⟩
  | .hbm, ⟨62, _⟩ => ⟨S262144x128, .f32⟩
  | .hbm, ⟨63, _⟩ => ⟨S1x128x128, .f32⟩
  | .hbm, ⟨64, _⟩ => ⟨S128x128, .f32⟩
  | .hbm, ⟨65, _⟩ => ⟨S128x128, .f32⟩
  | .hbm, ⟨66, _⟩ => ⟨S262144x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S262144x128, .f32⟩
  | .hbm, ⟨71, _⟩ => ⟨S262144x128, .f32⟩
  | .hbm, ⟨72, _⟩ => ⟨S_, .f32⟩
  | .hbm, ⟨73, _⟩ => ⟨S262144x128, .f32⟩
  | .hbm, ⟨74, _⟩ => ⟨S262144x128, .f32⟩
  | .hbm, ⟨75, _⟩ => ⟨S1x128x128, .f32⟩
  | .hbm, ⟨76, _⟩ => ⟨S128x128, .f32⟩
  | .hbm, ⟨77, _⟩ => ⟨S128x128, .f32⟩
  | .hbm, ⟨78, _⟩ => ⟨S262144x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S262144x128, .f32⟩
  | .hbm, ⟨83, _⟩ => ⟨S262144x128, .f32⟩
  | .hbm, ⟨84, _⟩ => ⟨S_, .f32⟩
  | .hbm, ⟨85, _⟩ => ⟨S262144x128, .f32⟩
  | .hbm, ⟨86, _⟩ => ⟨S262144x128, .f32⟩
  | .hbm, ⟨87, _⟩ => ⟨S1x128x128, .f32⟩
  | .hbm, ⟨88, _⟩ => ⟨S128x128, .f32⟩
  | .hbm, ⟨89, _⟩ => ⟨S128x128, .f32⟩
  | .hbm, ⟨90, _⟩ => ⟨S262144x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S262144x128, .f32⟩
  | .hbm, ⟨95, _⟩ => ⟨S262144x128, .f32⟩
  | .hbm, ⟨96, _⟩ => ⟨S_, .f32⟩
  | .hbm, ⟨97, _⟩ => ⟨S262144x128, .f32⟩
  | .hbm, ⟨98, _⟩ => ⟨S262144x128, .f32⟩
  | .hbm, ⟨99, _⟩ => ⟨S128x3, .f32⟩
  | .hbm, ⟨100, _⟩ => ⟨S262144x3, .f32⟩
  | .hbm, ⟨101, _⟩ => ⟨S1x3, .f32⟩
  | .hbm, ⟨102, _⟩ => ⟨S262144x3, .f32⟩
  | .hbm, ⟨103, _⟩ => ⟨S262144x3, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_cst : Ref sig .tc := ⟨.hbm, 36, rfl⟩
abbrev main_call2_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call3_cst : Ref sig .tc := ⟨.hbm, 48, rfl⟩
abbrev main_call3_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call4_cst : Ref sig .tc := ⟨.hbm, 60, rfl⟩
abbrev main_call4_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call5_cst : Ref sig .tc := ⟨.hbm, 72, rfl⟩
abbrev main_call5_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call6_cst : Ref sig .tc := ⟨.hbm, 84, rfl⟩
abbrev main_call6_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call7_cst : Ref sig .tc := ⟨.hbm, 96, rfl⟩
abbrev main_call7_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]

class Facts₀ : Prop where
  transposes_S128x3_S3x128_1_0 : S128x3.Transposes [1, 0] S3x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  slices_S7x128x128_S1x128x128_0_0_0 : S7x128x128.Slices ![0, 0, 0] S1x128x128
  shapeCasts_S1x128x128_S128x128 : S1x128x128.ShapeCasts S128x128
  transposes_S128x128_S128x128_1_0 : S128x128.Transposes [1, 0] S128x128
  slices_S7x128_S1x128_0_0 : S7x128.Slices ![0, 0] S1x128
  shapeCasts_S1x128_S128 : S1x128.ShapeCasts S128
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  transposes_S3x128_S128x3_1_0 : S3x128.Transposes [1, 0] S128x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  dot_S262144x3_S3x128_S262144x128_1_0_0_1_n_n_wf : DotDims.WF S262144x3 S3x128 S262144x128 [1] [0] [0] [1] [] []
  dot_S262144x128_S128x128_S262144x128_1_0_0_1_n_n_wf : DotDims.WF S262144x128 S128x128 S262144x128 [1] [0] [0] [1] [] []
  dot_S262144x128_S128x3_S262144x3_1_0_0_1_n_n_wf : DotDims.WF S262144x128 S128x3 S262144x3 [1] [0] [0] [1] [] []

variable [Facts₀]

def dot_S262144x3_S3x128_S262144x128_1_0_0_1_n_n : DotDims S262144x3 S3x128 S262144x128 where
  lhsContracting := [1]
  rhsContracting := [0]
  lhsNonContracting := [0]
  rhsNonContracting := [1]
  lhsBatch := []
  rhsBatch := []
  wf := dot_S262144x3_S3x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.LibAffineRows.lean ====
/-
  Affine layers with output-major weights, read one row at a time at the ideal values.

  A dense network stores a layer's weights output-major (`H` rows of `K` entries) and multiplies by the transpose:
  entry `h` of the layer's result on a row is the row against ROW `h` of the weights, plus entry `h` of the bias.  This
  file fixes that vocabulary — `rowOf`, `lin`, `slab` / `brow` (one matrix of a stack, one row of a stack of biases),
  and the array-level forms `linA`, `reluA`, which act on every row of an array by itself — and reads the array-level
  operations of both spellings as these forms: a `tpu.matmul` of narrowed operands, the right one transposed, into
  a zero accumulator, plus a bias cast to one row and broadcast down the rows; the host's `dot_general` against a
  transposed matrix plus a bias broadcast in two steps; the positive part against a zero splat; a slab or a row taken
  by a load through a unit-stride rectangle or by a slice, its unit axis dropped.
  Everything is generic in the extents.
-/
import proofs.«121644_j85461259255883_1_alg».proof.Proof.LibRowOps

noncomputable section

open scoped BigOperators

namespace AffineRows

open Idealize.ShloMosaic Idealize.ShloMosaic.ValueIdx

/-! ## Rows, and the layers on one row -/

/-- Row `n` of a two-axis array. -/
def rowOf {R K : ℕ} (y : (⟨2, ![R, K]⟩ : Shape).Idx → EReal) (n : Fin R) : Fin K → EReal := fun k => y (ix2 n k)

/-- An affine layer on one row, the weights output-major: the row against row `h` of the weights, plus the bias. -/
def lin {K H : ℕ} (W : (⟨2, ![H, K]⟩ : Shape).Idx → EReal) (b : (⟨1, ![H]⟩ : Shape).Idx → EReal)
    (x : Fin K → EReal) : Fin H → EReal :=
  fun h => (∑ k : Fin K, x k * W (ix2 h k)) + b (ix1 h)

/-- Slab `s` of a stack of matrices. -/
def slab {P H K : ℕ} {α : Type} (W : (⟨3, ![P, H, K]⟩ : Shape).Idx → α) (s : Fin P) : (⟨2, ![H, K]⟩ : Shape).Idx → α :=
  fun j => W (ix3 s (j 0) (j 1))

/-- Row `s` of a stack of bias vectors. -/
def brow {P H : ℕ} {α : Type} (b : (⟨2, ![P, H]⟩ : Shape).Idx → α) (s : Fin P) : (⟨1, ![H]⟩ : Shape).Idx → α :=
  fun j => b (ix2 s (j 0))

/-- The affine layer applied to every row of an array. -/
def linA {R K H : ℕ} (W : (⟨2, ![H, K]⟩ : Shape).Idx → EReal) (b : (⟨1, ![H]⟩ : Shape).Idx → EReal)
    (y : (⟨2, ![R, K]⟩ : Shape).Idx → EReal) : (⟨2, ![R, H]⟩ : Shape).Idx → EReal :=
  fun i => lin W b (rowOf y (i 0)) (i 1)

/-- The positive part of every row of an array. -/
def reluA {R H : ℕ} (y : (⟨2, ![R, H]⟩ : Shape).Idx → EReal) : (⟨2, ![R, H]⟩ : Shape).Idx → EReal :=
  fun i => RowOps.relu (rowOf y (i 0)) (i 1)

theorem rowOf_linA {R K H : ℕ} (W : (⟨2, ![H, K]⟩ : Shape).Idx → EReal) (b : (⟨1, ![H]⟩ : Shape).Idx → EReal)
    (y : (⟨2, ![R, K]⟩ : Shape).Idx → EReal) (n : Fin R) : rowOf (linA W b y) n = lin W b (rowOf y n) := rfl

theorem rowOf_reluA {R H : ℕ} (y : (⟨2, ![R, H]⟩ : Shape).Idx → EReal) (n : Fin R) :
    rowOf (reluA y) n = RowOps.relu (rowOf y n) := rfl

/-! ## An affine layer of an array, in both spellings -/

section Layer
variable {R K H : ℕ}

/-- The kernel's spelling: the narrowed rows against the narrowed weights transposed, into the zero splat, plus the bias
    cast to one row and broadcast down the rows. -/
theorem layerK (d : DotDims ⟨2, ![R, K]⟩ ⟨2, ![K, H]⟩ ⟨2, ![R, H]⟩) (hd : d = DotDims.plain R K H)
    (y : FVec Ideal ⟨2, ![R, K]⟩ .f32) (W : FVec Ideal ⟨2, ![H, K]⟩ .f32) (b : FVec Ideal ⟨1, ![H]⟩ .f32)
    (hy : FTy.bf16.bits < FTy.f32.bits) (hW : FTy.bf16.bits < FTy.f32.bits)
    (hT : (⟨2, ![H, K]⟩ : Shape).Transposes [1, 0] ⟨2, ![K, H]⟩)
    (hsc : (⟨1, ![H]⟩ : Shape).ShapeCasts ⟨2, ![1, H]⟩) (hbc : (⟨2, ![1, H]⟩ : Shape).Broadcasts ⟨2, ![R, H]⟩) :
    addf (matmul d none (truncf .bf16 y hy) (transpose ⟨2, ![K, H]⟩ [1, 0] (truncf .bf16 W hW) hT)
          (constant ⟨2, ![R, H]⟩ .f32 0x00000000#32))
        (broadcastTo ⟨2, ![R, H]⟩ (shapeCast ⟨2, ![1, H]⟩ b hsc) hbc)
      = linA W b y := by
  funext i
  obtain ⟨n, h, rfl⟩ : ∃ (n : Fin R) (h : Fin H), i = ix2 n h := ⟨i 0, i 1, eq_ix2 i⟩
  show matmul d none (truncf .bf16 y hy) (transpose ⟨2, ![K, H]⟩ [1, 0] (truncf .bf16 W hW) hT)
          (constant ⟨2, ![R, H]⟩ .f32 0x00000000#32) (ix2 n h)
      + broadcastTo ⟨2, ![R, H]⟩ (shapeCast ⟨2, ![1, H]⟩ b hsc) hbc (ix2 n h) = _
  rw [RowOps.matmul_plain_apply d hd, RowOps.bias_cast_apply]
  refine congrArg (· + b (ix1 h)) (Finset.sum_congr rfl fun k _ => ?_)
  rw [transpose_ix2_apply]
  rfl

/-- The host's spelling: `dot_general` against the weights transposed, plus the bias broadcast to one row, then down
    the rows. -/
theorem layerH (d : DotDims ⟨2, ![R, K]⟩ ⟨2, ![K, H]⟩ ⟨2, ![R, H]⟩) (hd : d = DotDims.plain R K H)
    (y : FVec Ideal ⟨2, ![R, K]⟩ .f32) (W : FVec Ideal ⟨2, ![H, K]⟩ .f32) (b : FVec Ideal ⟨1, ![H]⟩ .f32)
    (hT : (⟨2, ![H, K]⟩ : Shape).Transposes [1, 0] ⟨2, ![K, H]⟩)
    (h1 : (⟨1, ![H]⟩ : Shape).BroadcastsInDim ⟨2, ![1, H]⟩ ![1])
    (h2 : (⟨2, ![1, H]⟩ : Shape).BroadcastsInDim ⟨2, ![R, H]⟩ ![0, 1]) :
    addf (Host.dotGeneral d none y (transpose ⟨2, ![K, H]⟩ [1, 0] W hT))
        (broadcastInDim ⟨2, ![R, H]⟩ ![0, 1] h2 (broadcastInDim ⟨2, ![1, H]⟩ ![1] h1 b))
      = linA W b y := by
  funext i
  obtain ⟨n, h, rfl⟩ : ∃ (n : Fin R) (h : Fin H), i = ix2 n h := ⟨i 0, i 1, eq_ix2 i⟩
  show Host.dotGeneral d none y (transpose ⟨2, ![K, H]⟩ [1, 0] W hT) (ix2 n h)
      + broadcastInDim ⟨2, ![R, H]⟩ ![0, 1] h2 (broadcastInDim ⟨2, ![1, H]⟩ ![1] h1 b) (ix2 n h) = _
  rw [RowOps.dotGeneral_plain_apply d hd, RowOps.bias_bcast_apply b _ rfl h1 _ rfl rfl h2]
  refine congrArg (· + b (ix1 h)) (Finset.sum_congr rfl fun k _ => ?_)
  rw [transpose_ix2_apply]
  rfl

/-- The kernel's positive part: the maximum with a splat of the zero word. -/
theorem reluK (z : FVec Ideal ⟨2, ![R, H]⟩ .f32) :
    maximumf z (broadcast ⟨2, ![R, H]⟩ (Scalar.ofBits (F := Ideal) .f32 0x00000000#32)) = reluA z := by
  funext i
  obtain ⟨n, h, rfl⟩ : ∃ (n : Fin R) (h : Fin H), i = ix2 n h := ⟨i 0, i 1, eq_ix2 i⟩
  rfl

/-- The host's positive part: the maximum with the zero constant broadcast from a scalar. -/
theorem reluH (z : FVec Ideal ⟨2, ![R, H]⟩ .f32) (d0 : Fin 0 → Fin 2)
    (hb : (⟨0, ![]⟩ : Shape).BroadcastsInDim ⟨2, ![R, H]⟩ d0) :
    maximumf z (broadcastInDim ⟨2, ![R, H]⟩ d0 hb (constant (F := Ideal) ⟨0, ![]⟩ .f32 0x00000000#32)) = reluA z := by
  funext i
  obtain ⟨n, h, rfl⟩ : ∃ (n : Fin R) (h : Fin H), i = ix2 n h := ⟨i 0, i 1, eq_ix2 i⟩
  rfl

end Layer

/-! ## A slab of the weights and a row of the biases, in both spellings -/

section Slabs
variable {P H K : ℕ} {α : Type}

/-- The kernel's slab: a load through the rectangle of one slab, its unit axis dropped. -/
theorem slabK {Val : EltTy → Type} {e : EltTy} (x : (⟨3, ![P, H, K]⟩ : Shape).Idx → Val e) (s : ℕ) (hs : s < P)
    (inb : ∀ a, (![s, 0, 0] : Fin 3 → ℕ) a + (⟨3, ![1, H, K]⟩ : Shape).size a ≤ (⟨3, ![P, H, K]⟩ : Shape).size a)
    (hsc : (⟨3, ![1, H, K]⟩ : Shape).ShapeCasts ⟨2, ![H, K]⟩) :
    shapeCast ⟨2, ![H, K]⟩
        (View.ld x (Rect.unit (s := ⟨3, ![P, H, K]⟩) ![s, 0, 0] (⟨3, ![1, H, K]⟩ : Shape).size inb)) hsc
      = slab x ⟨s, hs⟩ := by
  funext j
  obtain ⟨h, k, rfl⟩ : ∃ (h : Fin H) (k : Fin K), j = ix2 h k := ⟨j 0, j 1, eq_ix2 j⟩
  rw [shapeCast_1ab_ab_apply]
  show x ((Rect.unit (s := ⟨3, ![P, H, K]⟩) ![s, 0, 0] (⟨3, ![1, H, K]⟩ : Shape).size inb).emb (ix3 (0 : Fin 1) h k)) = _
  refine congrArg x (funext fun a => Fin.ext ?_)
  match a with
  | ⟨0, _⟩ => show s + 1 * 0 = s; omega
  | ⟨1, _⟩ => show 0 + 1 * h.val = h.val; omega
  | ⟨2, _⟩ => show 0 + 1 * k.val = k.val; omega

/-- The host's slab: a slice of one slab, its unit axis dropped. -/
theorem slabH (x : (⟨3, ![P, H, K]⟩ : Shape).Idx → α) (s : ℕ) (hs : s < P)
    (hsl : (⟨3, ![P, H, K]⟩ : Shape).Slices ![s, 0, 0] ⟨3, ![1, H, K]⟩)
    (hsc : (⟨3, ![1, H, K]⟩ : Shape).ShapeCasts ⟨2, ![H, K]⟩) :
    shapeCast ⟨2, ![H, K]⟩ (extractStridedSlice ⟨3, ![1, H, K]⟩ ![s, 0, 0] x hsl) hsc = slab x ⟨s, hs⟩ := by
  funext j
  obtain ⟨h, k, rfl⟩ : ∃ (h : Fin H) (k : Fin K), j = ix2 h k := ⟨j 0, j 1, eq_ix2 j⟩
  rw [shapeCast_1ab_ab_apply]
  refine extractStridedSlice_apply _ x hsl _ (ix3 ⟨s, hs⟩ h k) fun a => ?_
  match a with
  | ⟨0, _⟩ => show s = s + 0; omega
  | ⟨1, _⟩ => show h.val = 0 + h.val; omega
  | ⟨2, _⟩ => show k.val = 0 + k.val; omega

/-- The kernel's bias row: a load through the rectangle of one row, its unit axis dropped. -/
theorem browK {Val : EltTy → Type} {e : EltTy} (x : (⟨2, ![P, H]⟩ : Shape).Idx → Val e) (s : ℕ) (hs : s < P)
    (inb : ∀ a, (![s, 0] : Fin 2 → ℕ) a + (⟨2, ![1, H]⟩ : Shape).size a ≤ (⟨2, ![P, H]⟩ : Shape).size a)
    (hsc : (⟨2, ![1, H]⟩ : Shape).ShapeCasts ⟨1, ![H]⟩) :
    shapeCast ⟨1, ![H]⟩ (View.ld x (Rect.unit (s := ⟨2, ![P, H]⟩) ![s, 0] (⟨2, ![1, H]⟩ : Shape).size inb)) hsc
      = brow x ⟨s, hs⟩ := by
  funext j
  obtain ⟨h, rfl⟩ : ∃ h : Fin H, j = ix1 h := ⟨j 0, eq_ix1 j⟩
  rw [shapeCast_1a_a_apply]
  show x ((Rect.unit (s := ⟨2, ![P, H]⟩) ![s, 0] (⟨2, ![1, H]⟩ : Shape).size inb).emb (ix2 (0 : Fin 1) h)) = _
  refine congrArg x (funext fun a => Fin.ext ?_)
  match a with
  | ⟨0, _⟩ => show s + 1 * 0 = s; omega
  | ⟨1, _⟩ => show 0 + 1 * h.val = h.val; omega

/-- The host's bias row: a slice of one row, its unit axis dropped. -/
theorem browH (x : (⟨2, ![P, H]⟩ : Shape).Idx → α) (s : ℕ) (hs : s < P)
    (hsl : (⟨2, ![P, H]⟩ : Shape).Slices ![s, 0] ⟨2, ![1, H]⟩)
    (hsc : (⟨2, ![1, H]⟩ : Shape).ShapeCasts ⟨1, ![H]⟩) :
    shapeCast ⟨1, ![H]⟩ (extractStridedSlice ⟨2, ![1, H]⟩ ![s, 0] x hsl) hsc = brow x ⟨s, hs⟩ := by
  funext j
  obtain ⟨h, rfl⟩ : ∃ h : Fin H, j = ix1 h := ⟨j 0, eq_ix1 j⟩
  rw [shapeCast_1a_a_apply]
  refine extractStridedSlice_apply _ x hsl _ (ix2 ⟨s, hs⟩ h) fun a => ?_
  match a with
  | ⟨0, _⟩ => show s = s + 0; omega
  | ⟨1, _⟩ => show h.val = 0 + h.val; omega

end Slabs

end AffineRows

end
-- ==== Proof.Net.lean ====
/-
  The network both programs compute, on one row and on every row of an array.

  A row of three entries goes through an affine layer into 128 entries and a positive part, then through seven
  affine layers of 128 into 128 entries, each followed by a positive part, then through an affine layer into three
  entries.  Every weight matrix is stored output-major; the seven inner layers' weights and biases are the seven slabs
  of one rank-3 array and the seven rows of one rank-2 array.  Entry `(n, c)` of the network's array depends on row `n`
  of the input alone, whatever the number of rows: that is what lets a block of rows be computed by itself.
-/
import proofs.«121644_j85461259255883_1_alg».proof.Proof.LibAffineRows

noncomputable section

open scoped BigOperators

namespace Mlp

open Idealize.ShloMosaic Idealize.ShloMosaic.ValueIdx AffineRows

/-! ## The whole network, on one row and on every row of an array -/

section Net
variable (W0 : (⟨2, ![128, 3]⟩ : Shape).Idx → EReal) (b0 : (⟨1, ![128]⟩ : Shape).Idx → EReal)
  (Wh : (⟨3, ![7, 128, 128]⟩ : Shape).Idx → EReal) (bh : (⟨2, ![7, 128]⟩ : Shape).Idx → EReal)
  (Wout : (⟨2, ![3, 128]⟩ : Shape).Idx → EReal) (bout : (⟨1, ![3]⟩ : Shape).Idx → EReal)

/-- Inner layer `s` on one row: the affine layer of slab `s` and bias row `s`, then the positive part. -/
def hid (s : Fin 7) (y : Fin 128 → EReal) : Fin 128 → EReal := RowOps.relu (lin (slab Wh s) (brow bh s) y)

/-- The network on one row. -/
def net (x : Fin 3 → EReal) : Fin 3 → EReal :=
  lin Wout bout (hid Wh bh 6 (hid Wh bh 5 (hid Wh bh 4 (hid Wh bh 3 (hid Wh bh 2 (hid Wh bh 1 (hid Wh bh 0
    (RowOps.relu (lin W0 b0 x)))))))))

/-- Inner layer `s` on every row of an array. -/
def hidA {R : ℕ} (s : Fin 7) (y : (⟨2, ![R, 128]⟩ : Shape).Idx → EReal) : (⟨2, ![R, 128]⟩ : Shape).Idx → EReal :=
  reluA (linA (slab Wh s) (brow bh s) y)

/-- The network on every row of an array. -/
def netA {R : ℕ} (x : (⟨2, ![R, 3]⟩ : Shape).Idx → EReal) : (⟨2, ![R, 3]⟩ : Shape).Idx → EReal :=
  linA Wout bout (hidA Wh bh 6 (hidA Wh bh 5 (hidA Wh bh 4 (hidA Wh bh 3 (hidA Wh bh 2 (hidA Wh bh 1 (hidA Wh bh 0
    (reluA (linA W0 b0 x)))))))))

/-- Entry `(n, c)` of the network's array depends on row `n` of the input alone. -/
theorem netA_apply {R : ℕ} (x : (⟨2, ![R, 3]⟩ : Shape).Idx → EReal) (n : Fin R) (c : Fin 3) :
    netA W0 b0 Wh bh Wout bout x (ix2 n c) = net W0 b0 Wh bh Wout bout (rowOf x n) c := rfl

end Net

end Mlp

end
-- ==== Proof.KernelValue.lean ====
/-
  What the kernel's result array holds after the run, at the ideal values.

  Each grid point `t` stages rows `8192·t … 8192·t + 8191` of the input and all of every weight and bias array, and
  writes back one block of 8192 rows of the result.  The body's one store is the network of `Net.lean` applied to
  every row of the staged block (`out_eq`: its three payloads are three, three and three layers of the network);
  a row of the staged block is a row of the input array (`row_block`), so what point `t` writes back is block `t` of
  the network applied to every row of the whole input (`flushed_eq`); the 32 blocks cover the result array
  (`cover`), which therefore ends holding that array (`final`, `run`).
-/
import proofs.«121644_j85461259255883_1_alg».proof.Proof.Gen.KernelIdeal.Value
import proofs.«121644_j85461259255883_1_alg».proof.Proof.Net

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value AffineRows Mlp

/-! ## The body's payloads are layers of the network -/

theorem hz1 : (![0] : Fin 1 → Nat) = fun _ => 0 := funext fun a => by fin_cases a <;> rfl
theorem hz2 : (![0, 0] : Fin 2 → Nat) = fun _ => 0 := funext fun a => by fin_cases a <;> rfl

/-- The first payload: the first layer and two inner layers, each with its positive part. -/
theorem pay2_eq (v0 : Vec Ideal S8192x3 .f32) (v2 : Vec Ideal S128x3 .f32) (v4 : Vec Ideal S128 .f32)
    (v12 : Vec Ideal S1x128x128 .f32) (v15 : Vec Ideal S1x128 .f32) (v25 : Vec Ideal S1x128x128 .f32) (v28 : Vec Ideal S1x128 .f32) :
    k0_pay2 (F := Ideal) v0 v2 v4 v12 v15 v25 v28
      = reluA (linA (shapeCast S128x128 v25 Facts₀.shapeCasts_S1x128x128_S128x128) (shapeCast S128 v28 Facts₀.shapeCasts_S1x128_S128)
          (reluA (linA (shapeCast S128x128 v12 Facts₀.shapeCasts_S1x128x128_S128x128) (shapeCast S128 v15 Facts₀.shapeCasts_S1x128_S128)
            (reluA (linA v2 v4 v0))))) := by
  unfold k0_pay2
  dsimp only
  rw [reluK, layerK dot_S8192x128_S128x128_S8192x128_1_0_0_1_n_n rfl, reluK, layerK dot_S8192x128_S128x128_S8192x128_1_0_0_1_n_n rfl, reluK, layerK dot_S8192x3_S3x128_S8192x128_1_0_0_1_n_n rfl]

/-- The second payload: three inner layers, each with its positive part. -/
theorem pay3_eq (v37 : FVec Ideal S8192x128 .f32) (v38 : Vec Ideal S1x128x128 .f32) (v41 : Vec Ideal S1x128 .f32)
    (v51 : Vec Ideal S1x128x128 .f32) (v54 : Vec Ideal S1x128 .f32) (v64 : Vec Ideal S1x128x128 .f32) (v67 : Vec Ideal S1x128 .f32) :
    k0_pay3 (F := Ideal) v37 v38 v41 v51 v54 v64 v67
      = reluA (linA (shapeCast S128x128 v64 Facts₀.shapeCasts_S1x128x128_S128x128) (shapeCast S128 v67 Facts₀.shapeCasts_S1x128_S128)
          (reluA (linA (shapeCast S128x128 v51 Facts₀.shapeCasts_S1x128x128_S128x128) (shapeCast S128 v54 Facts₀.shapeCasts_S1x128_S128)
            (reluA (linA (shapeCast S128x128 v38 Facts₀.shapeCasts_S1x128x128_S128x128) (shapeCast S128 v41 Facts₀.shapeCasts_S1x128_S128) v37))))) := by
  unfold k0_pay3
  dsimp only
  rw [reluK, layerK dot_S8192x128_S128x128_S8192x128_1_0_0_1_n_n rfl, reluK, layerK dot_S8192x128_S128x128_S8192x128_1_0_0_1_n_n rfl, reluK, layerK dot_S8192x128_S128x128_S8192x128_1_0_0_1_n_n rfl]

/-- The third payload: two inner layers, each with its positive part, and the last layer. -/
theorem pay1_eq (v76 : FVec Ideal S8192x128 .f32) (v77 : Vec Ideal S1x128x128 .f32) (v80 : Vec Ideal S1x128 .f32)
    (v90 : Vec Ideal S1x128x128 .f32) (v93 : Vec Ideal S1x128 .f32) (v103 : Vec Ideal S3x128 .f32) (v105 : Vec Ideal S3 .f32) :
    k0_pay1 (F := Ideal) v76 v77 v80 v90 v93 v103 v105
      = linA v103 v105
          (reluA (linA (shapeCast S128x128 v90 Facts₀.shapeCasts_S1x128x128_S128x128) (shapeCast S128 v93 Facts₀.shapeCasts_S1x128_S128)
            (reluA (linA (shapeCast S128x128 v77 Facts₀.shapeCasts_S1x128x128_S128x128) (shapeCast S128 v80 Facts₀.shapeCasts_S1x128_S128) v76)))) := by
  unfold k0_pay1
  dsimp only
  rw [layerK dot_S8192x128_S128x3_S8192x3_1_0_0_1_n_n rfl, reluK, layerK dot_S8192x128_S128x128_S8192x128_1_0_0_1_n_n rfl, reluK, layerK dot_S8192x128_S128x128_S8192x128_1_0_0_1_n_n rfl]

/-- The body's one store, from the staged blocks: the network applied to every row of the staged input block, its
    weights and biases the staged ones (each inner layer's the slab and the row its loads take). -/
theorem out_eq (x0 : Vec Ideal S8192x3 .f32) (x1 : Vec Ideal S128x3 .f32) (x2 : Vec Ideal S128 .f32)
    (x3 : Vec Ideal S7x128x128 .f32) (x4 : Vec Ideal S7x128 .f32) (x5 : Vec Ideal S3x128 .f32) (x6 : Vec Ideal S3 .f32) :
    out0_7 (F := Ideal) x0 x1 x2 x3 x4 x5 x6 = netA x1 x2 x3 x4 x5 x6 x0 := by
  unfold out0_7
  rw [View.canon_unit_zero hz2, pay1_eq, pay3_eq, pay2_eq]
  simp only [View.ld_unit_zero (S := S8192x3) hz2, View.ld_unit_zero (S := S128x3) hz2, View.ld_unit_zero (S := S128) hz1,
    View.ld_unit_zero (S := S3x128) hz2, View.ld_unit_zero (S := S3) hz1]
  rw [slabK x3 0 (by decide), slabK x3 1 (by decide), slabK x3 2 (by decide), slabK x3 3 (by decide),
    slabK x3 4 (by decide), slabK x3 5 (by decide), slabK x3 6 (by decide),
    browK x4 0 (by decide), browK x4 1 (by decide), browK x4 2 (by decide), browK x4 3 (by decide),
    browK x4 4 (by decide), browK x4 5 (by decide), browK x4 6 (by decide)]
  rfl

/-! ## The staged blocks and the arrays they are blocks of -/

variable (m : (ℓ : Loc nD τ sig) → Buf (Elt Ideal) ℓ) (ρ : Dev nD → PrngReg)

/-- The seven argument arrays as launched, at their shapes. -/
abbrev xarr (c : Dev nD) : Vec Ideal S262144x3 .f32 := m ((c : Thread nD τ).loc main_arg0)
abbrev w0arr (c : Dev nD) : Vec Ideal S128x3 .f32 := m ((c : Thread nD τ).loc main_arg1)
abbrev b0arr (c : Dev nD) : Vec Ideal S128 .f32 := m ((c : Thread nD τ).loc main_arg2)
abbrev wharr (c : Dev nD) : Vec Ideal S7x128x128 .f32 := m ((c : Thread nD τ).loc main_arg3)
abbrev bharr (c : Dev nD) : Vec Ideal S7x128 .f32 := m ((c : Thread nD τ).loc main_arg4)
abbrev woarr (c : Dev nD) : Vec Ideal S3x128 .f32 := m ((c : Thread nD τ).loc main_arg5)
abbrev boarr (c : Dev nD) : Vec Ideal S3 .f32 := m ((c : Thread nD τ).loc main_arg6)

/-- What each input window stages at point `t`, at its shape. -/
abbrev xblk (c : Dev nD) (t : Fin cfg0.N) : Vec Ideal S8192x3 .f32 := iblk m c 0 t
abbrev w0blk (c : Dev nD) (t : Fin cfg0.N) : Vec Ideal S128x3 .f32 := iblk m c 1 t
abbrev b0blk (c : Dev nD) (t : Fin cfg0.N) : Vec Ideal S128 .f32 := iblk m c 2 t
abbrev whblk (c : Dev nD) (t : Fin cfg0.N) : Vec Ideal S7x128x128 .f32 := iblk m c 3 t
abbrev bhblk (c : Dev nD) (t : Fin cfg0.N) : Vec Ideal S7x128 .f32 := iblk m c 4 t
abbrev woblk (c : Dev nD) (t : Fin cfg0.N) : Vec Ideal S3x128 .f32 := iblk m c 5 t
abbrev boblk (c : Dev nD) (t : Fin cfg0.N) : Vec Ideal S3 .f32 := iblk m c 6 t

/-- The printed index maps, decided over the 32 points: the input's and the result's block index is the point on the
    rows and zero on the columns; every weight and bias window sits at block zero. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

/-- Row `n` of the input block staged at point `t` is row `8192·t + n` of the input. -/
theorem row_block (c : Dev nD) (t : Fin cfg0.N) (n : Fin 8192) (r : Fin 262144) (hr : r.val = t.val * 8192 + n.val) :
    rowOf (xblk m c t) n = rowOf (xarr m c) r := by
  funext k
  obtain ⟨e0, e1, -⟩ := idx_facts t
  show V m c main_arg0 (((cfg0.win 0).blk t).view.emb (ix2 n k)) = m ((c : Thread nD τ).loc main_arg0) (ix2 r k)
  refine congrArg _ (funext fun a => Fin.ext ?_)
  match a with
  | ⟨0, _⟩ => show win0_0.index t (0 : Fin 2) * 8192 + 1 * n.val = r.val; omega
  | ⟨1, _⟩ => show win0_0.index t (1 : Fin 2) * 3 + 1 * k.val = k.val; omega

/-- Every point stages the whole first-layer weights. -/
theorem w0blk_eq (c : Dev nD) (t : Fin cfg0.N) : w0blk m c t = w0arr m c := by
  funext x
  obtain ⟨-, -, -, -, e0, e1, -⟩ := idx_facts t
  show V m c main_arg1 (((cfg0.win 1).blk t).view.emb x) = m ((c : Thread nD τ).loc main_arg1) x
  refine congrArg _ (funext fun a => Fin.ext ?_)
  match a with
  | ⟨0, _⟩ => show win0_1.index t (0 : Fin 2) * 128 + 1 * (x 0).val = (x 0).val; omega
  | ⟨1, _⟩ => show win0_1.index t (1 : Fin 2) * 3 + 1 * (x 1).val = (x 1).val; omega

/-- Every point stages the whole first-layer bias. -/
theorem b0blk_eq (c : Dev nD) (t : Fin cfg0.N) : b0blk m c t = b0arr m c := by
  funext x
  obtain ⟨-, -, -, -, -, -, e0, -⟩ := idx_facts t
  show V m c main_arg2 (((cfg0.win 2).blk t).view.emb x) = m ((c : Thread nD τ).loc main_arg2) x
  refine congrArg _ (funext fun a => Fin.ext ?_)
  match a with
  | ⟨0, _⟩ => show win0_2.index t (0 : Fin 1) * 128 + 1 * (x 0).val = (x 0).val; omega

/-- Every point stages the whole stack of inner weights. -/
theorem whblk_eq (c : Dev nD) (t : Fin cfg0.N) : whblk m c t = wharr m c := by
  funext x
  obtain ⟨-, -, -, -, -, -, -, e0, e1, e2, -⟩ := idx_facts t
  show V m c main_arg3 (((cfg0.win 3).blk t).view.emb x) = m ((c : Thread nD τ).loc main_arg3) x
  refine congrArg _ (funext fun a => Fin.ext ?_)
  match a with
  | ⟨0, _⟩ => show win0_3.index t (0 : Fin 3) * 7 + 1 * (x 0).val = (x 0).val; omega
  | ⟨1, _⟩ => show win0_3.index t (1 : Fin 3) * 128 + 1 * (x 1).val = (x 1).val; omega
  | ⟨2, _⟩ => show win0_3.index t (2 : Fin 3) * 128 + 1 * (x 2).val = (x 2).val; omega

/-- Every point stages the whole stack of inner biases. -/
theorem bhblk_eq (c : Dev nD) (t : Fin cfg0.N) : bhblk m c t = bharr m c := by
  funext x
  obtain ⟨-, -, -, -, -, -, -, -, -, -, e0, e1, -⟩ := idx_facts t
  show V m c main_arg4 (((cfg0.win 4).blk t).view.emb x) = m ((c : Thread nD τ).loc main_arg4) x
  refine congrArg _ (funext fun a => Fin.ext ?_)
  match a with
  | ⟨0, _⟩ => show win0_4.index t (0 : Fin 2) * 7 + 1 * (x 0).val = (x 0).val; omega
  | ⟨1, _⟩ => show win0_4.index t (1 : Fin 2) * 128 + 1 * (x 1).val = (x 1).val; omega

/-- Every point stages the whole last-layer weights. -/
theorem woblk_eq (c : Dev nD) (t : Fin cfg0.N) : woblk m c t = woarr m c := by
  funext x
  obtain ⟨-, -, -, -, -, -, -, -, -, -, -, -, e0, e1, -⟩ := idx_facts t
  show V m c main_arg5 (((cfg0.win 5).blk t).view.emb x) = m ((c : Thread nD τ).loc main_arg5) x
  refine congrArg _ (funext fun a => Fin.ext ?_)
  match a with
  | ⟨0, _⟩ => show win0_5.index t (0 : Fin 2) * 3 + 1 * (x 0).val = (x 0).val; omega
  | ⟨1, _⟩ => show win0_5.index t (1 : Fin 2) * 128 + 1 * (x 1).val = (x 1).val; omega

/-- Every point stages the whole last-layer bias. -/
theorem boblk_eq (c : Dev nD) (t : Fin cfg0.N) : boblk m c t = boarr m c := by
  funext x
  obtain ⟨-, -, -, -, -, -, -, -, -, -, -, -, -, -, e0⟩ := idx_facts t
  show V m c main_arg6 (((cfg0.win 6).blk t).view.emb x) = m ((c : Thread nD τ).loc main_arg6) x
  refine congrArg _ (funext fun a => Fin.ext ?_)
  match a with
  | ⟨0, _⟩ => show win0_6.index t (0 : Fin 1) * 3 + 1 * (x 0).val = (x 0).val; omega

/-! ## The result array -/

/-- The network applied to every row of the input array as launched. -/
abbrev result (c : Dev nD) : Buf (Elt Ideal) ((c : Thread nD τ).loc main_v0) :=
  netA (w0arr m c) (b0arr m c) (wharr m c) (bharr m c) (woarr m c) (boarr m c) (xarr m c)

/-- What point `t` writes back is block `t` of `result`. -/
theorem flushed_eq (c : Dev nD) (t : Fin cfg0.N) :
    (dats m 0 c).flushed 7 t = ((cfg0.win 7).blk t).view.read (Elt Ideal) (result m c) := by
  refine (flushed7 m c t).trans ?_
  show (cfg0.win 7).cut (grid0.coords t)
    (out0_7 (xblk m c t) (w0blk m c t) (b0blk m c t) (whblk m c t) (bhblk m c t) (woblk m c t) (boblk m c t)) = _
  rw [out_eq, w0blk_eq, b0blk_eq, whblk_eq, bhblk_eq, woblk_eq, boblk_eq]
  funext j
  obtain ⟨n, k, rfl⟩ : ∃ (n : Fin 8192) (k : Fin 3), j = ix2 n k := ⟨j 0, j 1, eq_ix2 j⟩
  obtain ⟨-, -, e0, e1, -⟩ := idx_facts t
  have hr : t.val * 8192 + n.val < 262144 := by
    have ht : t.val < 32 := lt_of_lt_of_eq t.isLt N_0
    omega
  have he : ((cfg0.win 7).blk t).view.emb (ix2 n k) = ix2 (⟨t.val * 8192 + n.val, hr⟩ : Fin 262144) k := by
    funext a; apply Fin.ext
    match a with
    | ⟨0, _⟩ => show win0_7.index t (0 : Fin 2) * 8192 + 1 * n.val = t.val * 8192 + n.val; omega
    | ⟨1, _⟩ => show win0_7.index t (1 : Fin 2) * 3 + 1 * k.val = k.val; omega
  show netA (w0arr m c) (b0arr m c) (wharr m c) (bharr m c) (woarr m c) (boarr m c) (xblk m c t) (ix2 n k)
    = result m c (((cfg0.win 7).blk t).view.emb (ix2 n k))
  rw [he]
  show netA (w0arr m c) (b0arr m c) (wharr m c) (bharr m c) (woarr m c) (boarr m c) (xblk m c t) (ix2 n k)
    = netA (w0arr m c) (b0arr m c) (wharr m c) (bharr m c) (woarr m c) (boarr m c) (xarr m c) (ix2 ⟨t.val * 8192 + n.val, hr⟩ k)
  rw [netA_apply, netA_apply, row_block m c t n ⟨_, hr⟩ rfl]

/-- An index of the result array is in point `t`'s block iff each coordinate is in the block's range on its axis. -/
theorem mem_blk (t : Fin cfg0.N) (i : S262144x3.Idx) :
    i ∈ ((cfg0.win 7).blk t).view.set ↔ ∀ a : Fin 2, win0_7.index t a * S8192x3.size a ≤ (i a).val
      ∧ (i a).val < win0_7.index t a * S8192x3.size a + S8192x3.size a := by
  show i ∈ ((View.whole main_v0).slice (win0_7.rect t)).set ↔ _
  rw [View.set_slice_whole, Rect.mem_set_unit]
  exact Iff.rfl

/-- Every index of the result array is in the block of the point its row falls to. -/
theorem cover (i : S262144x3.Idx) : ∃ t : Fin cfg0.N, (cfg0.win 7).flush t = true ∧ i ∈ ((cfg0.win 7).blk t).view.set := by
  have hi0 : (i 0).val < 262144 := (i 0).isLt
  have hi1 : (i 1).val < 3 := (i 1).isLt
  have hN : cfg0.N = 32 := N_0
  refine ⟨⟨(i 0).val / 8192, by rw [hN]; omega⟩, flush0_7 _, ?_⟩
  rw [mem_blk]
  obtain ⟨-, -, e0, e1, -⟩ := idx_facts ⟨(i 0).val / 8192, by rw [hN]; omega⟩
  intro a
  match a with
  | ⟨0, _⟩ =>
    show win0_7.index _ (0 : Fin 2) * 8192 ≤ (i 0).val ∧ (i 0).val < win0_7.index _ (0 : Fin 2) * 8192 + 8192
    rw [e0]; show (i 0).val / 8192 * 8192 ≤ (i 0).val ∧ (i 0).val < (i 0).val / 8192 * 8192 + 8192; omega
  | ⟨1, _⟩ =>
    show win0_7.index _ (1 : Fin 2) * 3 ≤ (i 1).val ∧ (i 1).val < win0_7.index _ (1 : Fin 2) * 3 + 3
    rw [e1]; omega

/-- So the result array ends holding `result`. -/
theorem final (c : Dev nD) : (dats m 0 c).arrAt 7 cfg0.N = result m c :=
  (dats m 0 c).arrAt_eq_of_cover 7 (result m c) (fun t _ => flushed_eq m c t) cover

/-- The run, read: the result array at the network of the input's rows, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.KernelIdeal.Hand

end
-- ==== Proof.RefValue.lean ====
/-
  What the reference's result array holds after its run, at the ideal values.

  The reference's run ends with its result at one composed term of the arguments: nine `dot_general`s against
  transposed weight matrices, each plus its bias broadcast in two steps, the first eight followed by a maximum with a
  zero splat, the inner seven taking slab `s` of the weight stack and row `s` of the bias stack by a slice.  Read
  layer by layer (`LibAffineRows.lean`) that term is the network of `Net.lean` applied to every row of the input array (`result_eq`).
-/
import proofs.«121644_j85461259255883_1_alg».proof.Proof.Gen.ReferenceIdeal.Run
import proofs.«121644_j85461259255883_1_alg».proof.Proof.Net

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Value AffineRows Mlp

variable (m : (ℓ : Loc nD τ sig) → Buf (Elt Ideal) ℓ)

/-- The seven argument arrays as launched, at their shapes. -/
abbrev xarr (c : Dev nD) : Vec Ideal S262144x3 .f32 := m ((c.tc : Thread nD τ).loc main_arg0)
abbrev w0arr (c : Dev nD) : Vec Ideal S128x3 .f32 := m ((c.tc : Thread nD τ).loc main_arg1)
abbrev b0arr (c : Dev nD) : Vec Ideal S128 .f32 := m ((c.tc : Thread nD τ).loc main_arg2)
abbrev wharr (c : Dev nD) : Vec Ideal S7x128x128 .f32 := m ((c.tc : Thread nD τ).loc main_arg3)
abbrev bharr (c : Dev nD) : Vec Ideal S7x128 .f32 := m ((c.tc : Thread nD τ).loc main_arg4)
abbrev woarr (c : Dev nD) : Vec Ideal S3x128 .f32 := m ((c.tc : Thread nD τ).loc main_arg5)
abbrev boarr (c : Dev nD) : Vec Ideal S3 .f32 := m ((c.tc : Thread nD τ).loc main_arg6)

/-- The run's result term is the network applied to every row of the input array. -/
theorem result_eq (c : Dev nD) :
    res_main_v80 (F := Ideal) m c
      = netA (w0arr m c) (b0arr m c) (wharr m c) (bharr m c) (woarr m c) (boarr m c) (xarr m c) := by
  unfold res_main_v80
  rw [layerH dot_S262144x128_S128x3_S262144x3_1_0_0_1_n_n rfl,
    reluH, layerH dot_S262144x128_S128x128_S262144x128_1_0_0_1_n_n rfl,
    reluH, layerH dot_S262144x128_S128x128_S262144x128_1_0_0_1_n_n rfl,
    reluH, layerH dot_S262144x128_S128x128_S262144x128_1_0_0_1_n_n rfl,
    reluH, layerH dot_S262144x128_S128x128_S262144x128_1_0_0_1_n_n rfl,
    reluH, layerH dot_S262144x128_S128x128_S262144x128_1_0_0_1_n_n rfl,
    reluH, layerH dot_S262144x128_S128x128_S262144x128_1_0_0_1_n_n rfl,
    reluH, layerH dot_S262144x128_S128x128_S262144x128_1_0_0_1_n_n rfl,
    reluH, layerH dot_S262144x3_S3x128_S262144x128_1_0_0_1_n_n rfl]
  rw [slabH (wharr m c) 0 (by decide), slabH (wharr m c) 1 (by decide), slabH (wharr m c) 2 (by decide),
    slabH (wharr m c) 3 (by decide), slabH (wharr m c) 4 (by decide), slabH (wharr m c) 5 (by decide),
    slabH (wharr m c) 6 (by decide),
    browH (bharr m c) 0 (by decide), browH (bharr m c) 1 (by decide), browH (bharr m c) 2 (by decide),
    browH (bharr m c) 3 (by decide), browH (bharr m c) 4 (by decide), browH (bharr m c) 5 (by decide),
    browH (bharr m c) 6 (by decide)]
  rfl

end Cert.ReferenceIdeal.Hand

end
-- ==== Proof.lean ====
/-
  The kernel against its reference, over the extended reals.

  Both programs compute a network of nine affine layers on each row of a 262144-by-3 input: 3 entries into 128, seven
  times 128 into 128, 128 into 3, the first eight layers each followed by a positive part.  The kernel narrows its
  matrix operands to bf16, which at the ideal values is the identity; it takes each product into a zero accumulator
  and each weight matrix transposed, as the reference does; the sums run over the same index in both.  So the two
  results are one function of the arguments, entry by entry, with no law of arithmetic used and the finiteness of the
  inputs never opened.

  The kernel walks the rows in 32 blocks of 8192 with every weight held whole: `Proof/KernelValue.lean` reads the
  body's store as the network of the staged rows and joins the 32 write-backs into the result array;
  `Proof/RefValue.lean` reads the reference's composed term as the same network; `Proof/Net.lean` holds the network
  itself, `Proof/LibAffineRows.lean` both spellings of each of its operations.  The three frames are the generated ones (the reference's is
  its generated run with the result dropped); the idealization rewrote nothing, so there is nothing to preserve.
-/
import proofs.«121644_j85461259255883_1_alg».proof.Defs
import proofs.«121644_j85461259255883_1_alg».proof.Proof.Gen.Kernel
import proofs.«121644_j85461259255883_1_alg».proof.Proof.Gen.Kernel.Skeleton
import proofs.«121644_j85461259255883_1_alg».proof.Proof.Gen.Kernel.Launch
import proofs.«121644_j85461259255883_1_alg».proof.Proof.Gen.Kernel.Points
import proofs.«121644_j85461259255883_1_alg».proof.Proof.Gen.Kernel.Frame
import proofs.«121644_j85461259255883_1_alg».proof.Proof.Gen.KernelIdeal
import proofs.«121644_j85461259255883_1_alg».proof.Proof.Gen.KernelIdeal.Skeleton
import proofs.«121644_j85461259255883_1_alg».proof.Proof.Gen.KernelIdeal.Launch
import proofs.«121644_j85461259255883_1_alg».proof.Proof.Gen.KernelIdeal.Points
import proofs.«121644_j85461259255883_1_alg».proof.Proof.Gen.KernelIdeal.Frame
import proofs.«121644_j85461259255883_1_alg».proof.Proof.Gen.ReferenceIdeal
import proofs.«121644_j85461259255883_1_alg».proof.Proof.Gen.Pre_finite_inputs
import proofs.«121644_j85461259255883_1_alg».proof.Proof.Gen.KernelIdeal.Value
import proofs.«121644_j85461259255883_1_alg».proof.Proof.Gen.ReferenceIdeal.Run
import proofs.«121644_j85461259255883_1_alg».proof.Proof.KernelValue
import proofs.«121644_j85461259255883_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs end with the network applied to every row of the
    input: the kernel by its 32 write-backs, the reference by its composed term. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.result_eq]
  obtain ⟨a0, a1, a2, a3, a4, a5, a6⟩ := hagree c
  have e0 : Cert.ReferenceIdeal.Hand.xarr m' c = Cert.KernelIdeal.Hand.xarr m c := a0
  have e1 : Cert.ReferenceIdeal.Hand.w0arr m' c = Cert.KernelIdeal.Hand.w0arr m c := a1
  have e2 : Cert.ReferenceIdeal.Hand.b0arr m' c = Cert.KernelIdeal.Hand.b0arr m c := a2
  have e3 : Cert.ReferenceIdeal.Hand.wharr m' c = Cert.KernelIdeal.Hand.wharr m c := a3
  have e4 : Cert.ReferenceIdeal.Hand.bharr m' c = Cert.KernelIdeal.Hand.bharr m c := a4
  have e5 : Cert.ReferenceIdeal.Hand.woarr m' c = Cert.KernelIdeal.Hand.woarr m c := a5
  have e6 : Cert.ReferenceIdeal.Hand.boarr m' c = Cert.KernelIdeal.Hand.boarr m c := a6
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
